-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3200000x16 : Shape := ⟨2, ![3200000, 16]⟩
abbrev S64x64 : Shape := ⟨2, ![64, 64]⟩
abbrev S144x128 : Shape := ⟨2, ![144, 128]⟩
abbrev S128 : Shape := ⟨1, ![128]⟩
abbrev S128x64 : Shape := ⟨2, ![128, 64]⟩
abbrev S64 : Shape := ⟨1, ![64]⟩
abbrev S2x3200000 : Shape := ⟨2, ![2, 3200000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S64x64 : S_.BroadcastsInDim S64x64 (![] : Fin 0 → Fin S64x64.rank)
  reducesTo_S64x64_S_d0_1 : S64x64.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part2 {F : FTy → Type} [FloatOps F] (main_arg8 : IVec S100000 32) (main_v33 : IVec S_ 1) : IVec S_ 1 :=
  let main_c_12 : IVec S_ 32 := constantI S_ 32 0#32
  let main_v34 : IVec S100000 32 := broadcastInDim S100000 ![] bcast_S_S100000 main_c_12
  let main_v35 : IVec S100000 1 := cmpi .sge main_arg8 main_v34
  let main_c_13 : IVec S_ 32 := constantI S_ 32 64#32
  let main_v36 : IVec S100000 32 := broadcastInDim S100000 ![] bcast_S_S100000 main_c_13
  let main_v37 : IVec S100000 1 := cmpi .slt main_arg8 main_v36
  let main_v38 : IVec S100000 1 := andi main_v35 main_v37
  let main_c_14 : IVec S_ 1 := constantI S_ 1 1#1
  let main_v39 : IVec S_ 1 := (fun x v => Host.reduce IntOp.andi x v reducesTo_S100000_S_d0 h_S_) main_v38 main_c_14
  let main_v40 : IVec S_ 1 := andi main_v33 main_v39
  main_v40

def fn_part1 {F : FTy → Type} [FloatOps F] (main_arg4 : FVec F S128 .f32) (main_arg5 : FVec F S128x64 .f32) (main_arg6 : FVec F S64 .f32) (main_arg8 : IVec S100000 32) (main_v13 : IVec S_ 1) (main_v16 : IVec S144x128 1) : IVec S_ 1 :=
  let main_c_5 : IVec S_ 1 := constantI S_ 1 1#1
  let main_v17 : IVec S_ 1 := (fun x v => Host.reduce IntOp.andi x v reducesTo_S144x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : FVec F S3200000x16 .f32) (main_arg2 : FVec F S64x64 .f32) (main_arg3 : FVec F S144x128 .f32) (main_arg4 : FVec F S128 .f32) (main_arg5 : FVec F S128x64 .f32) (main_arg6 : FVec F S64 .f32) (main_arg7 : IVec S2x3200000 32) (main_arg8 : IVec S100000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3200000x16 .f32 := Host.absf main_arg1
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S144x128 .f32 := Host.absf main_arg3
  let main_cst_4 : FVec F S_ .f32 := constant S_ .f32 0x7F800000#32
  let main_v15 : FVec F S144x128 .f32 := broadcastInDim S144x128 ![] bcast_S_S144x128 main_cst_4
  let main_v16 : IVec S144x128 1 := cmpf .olt main_v14 main_v15
  fn_part1 (F := F) main_arg4 main_arg5 main_arg6 main_arg8 main_v13 main_v16
-- ==== Kernel.lean ====
abbrev S100000x64 : Shape := ⟨2, ![100000, 64]⟩
abbrev S3200000x16 : Shape := ⟨2, ![3200000, 16]⟩
abbrev S64x64 : Shape := ⟨2, ![64, 64]⟩
abbrev S144x128 : Shape := ⟨2, ![144, 128]⟩
abbrev S128 : Shape := ⟨1, ![128]⟩
abbrev S128x64 : Shape := ⟨2, ![128, 64]⟩
abbrev S64 : Shape := ⟨1, ![64]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S100000x16 : Shape := ⟨2, ![100000, 16]⟩
abbrev S3200000x1 : Shape := ⟨2, ![3200000, 1]⟩
abbrev S100000x1 : Shape := ⟨2, ![100000, 1]⟩
abbrev S1x128 : Shape := ⟨2, ![1, 128]⟩
abbrev S1x64 : Shape := ⟨2, ![1, 64]⟩
abbrev S2000x64 : Shape := ⟨2, ![2000, 64]⟩
abbrev S2000x16 : Shape := ⟨2, ![2000, 16]⟩
abbrev S2000x1 : Shape := ⟨2, ![2000, 1]⟩
abbrev S2000x144 : Shape := ⟨2, ![2000, 144]⟩
abbrev S2000x128 : Shape := ⟨2, ![2000, 128]⟩

abbrev nBuf : Space → Nat
  | .hbm => 30
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S3200000x16, .f32⟩
  | .hbm, ⟨2, _⟩ => ⟨S64x64, .f32⟩
  | .hbm, ⟨3, _⟩ => ⟨S144x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x3200000, .i32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S100000x16, .f32⟩
  | .hbm, ⟨13, _⟩ => ⟨S3200000x1, .i32⟩
  | .hbm, ⟨14, _⟩ => ⟨S100000x16, .f32⟩
  | .hbm, ⟨15, _⟩ => ⟨S_, .f32⟩
  | .hbm, ⟨16, _⟩ => ⟨S3200000x1, .f32⟩
  | .hbm, ⟨17, _⟩ => ⟨S_, .f32⟩
  | .hbm, ⟨18, _⟩ => ⟨S100000x1, .f32⟩
  | .hbm, ⟨19, _⟩ => ⟨S3200000x1, .i32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S100000x16, .f32⟩
  | .hbm, ⟨25, _⟩ => ⟨S100000x16, .f32⟩
  | .hbm, ⟨26, _⟩ => ⟨S100000x1, .i32⟩
  | .hbm, ⟨27, _⟩ => ⟨S1x128, .f32⟩
  | .hbm, ⟨28, _⟩ => ⟨S1x64, .f32⟩
  | .hbm, ⟨29, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x16, .f32⟩
  | .local _ .vmem, ⟨3, _⟩ => ⟨S2000x16, .f32⟩
  | .local _ .vmem, ⟨4, _⟩ => ⟨S2000x1, .i32⟩
  | .local _ .vmem, ⟨5, _⟩ => ⟨S2000x1, .i32⟩
  | .local _ .vmem, ⟨6, _⟩ => ⟨S64x64, .f32⟩
  | .local _ .vmem, ⟨7, _⟩ => ⟨S144x128, .f32⟩
  | .local _ .vmem, ⟨8, _⟩ => ⟨S1x128, .f32⟩
  | .local _ .vmem, ⟨9, _⟩ => ⟨S128x64, .f32⟩
  | .local _ .vmem, ⟨10, _⟩ => ⟨S1x64, .f32⟩
  | .local _ .vmem, ⟨11, _⟩ => ⟨S2000x64, .f32⟩
  | .local _ .vmem, ⟨12, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x3200000_S1x3200000_1_0 : S2x3200000.Slices ![1, 0] S1x3200000
  shapeCasts_S1x3200000_S3200000 : S1x3200000.ShapeCasts S3200000
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  shapeCasts_S100000_S100000x1 : S100000.ShapeCasts S100000x1
  shapeCasts_S128_S1x128 : S128.ShapeCasts S1x128
  shapeCasts_S64_S1x64 : S64.ShapeCasts S1x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x64_d1_w32 : S2000x64.Iotas .tc 32 [1]
  broadcasts_S2000x1_S2000x64 : S2000x1.Broadcasts S2000x64
  natLt_1_32 : 1 < 32
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S2000x64_S2000x64_0_0 : ∀ a, (![0, 0] : Fin 2 → Nat) a + S2000x64.size a ≤ S2000x64.size a
  h_S2000x64 : 0 < S2000x64.numel
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  concatenates_S2000x64_S2000x16_S2000x64_S2000x144_d1 : Shape.Concatenates [S2000x64, S2000x16, S2000x64] S2000x144 1
  inb_S144x128_S144x128_0_0 : ∀ a, (![0, 0] : Fin 2 → Nat) a + S144x128.size a ≤ S144x128.size a
  h_S144x128 : 0 < S144x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000x16_S3200000x1_S3200000x16_1_0_0_1_wf : ScatterDims.WF S100000x16 S3200000x1 S3200000x16 [1] [0] [0] 1
  scatter_S100000x1_S3200000x1_S3200000x1_1_0_0_1_wf : ScatterDims.WF S100000x1 S3200000x1 S3200000x1 [1] [0] [0] 1
  dot_S2000x64_S64x64_S2000x64_1_0_0_1_n_n_wf : DotDims.WF S2000x64 S64x64 S2000x64 [1] [0] [0] [1] [] []
  dot_S2000x144_S144x128_S2000x128_1_0_0_1_n_n_wf : DotDims.WF S2000x144 S144x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x16.size a ≤ S100000x16.size a
  hwx0_1 : ∀ i : grid0.Coords, EltTy.bits .f32 = 32 ∨ (Rect.block (s := S100000x16) S2000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .i32 = 32 ∨ (Rect.block (s := S100000x1) S2000x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S144x128.size a ≤ S144x128.size a
  hwx0_4 : ∀ i : grid0.Coords, EltTy.bits .f32 = 32 ∨ (Rect.block (s := S144x128) S144x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x64.size a ≤ S100000x64.size a
  hwx0_8 : ∀ i : grid0.Coords, EltTy.bits .f32 = 32 ∨ (Rect.block (s := S100000x64) S2000x64.size (cc0_transform_8 i) (hinb0_8 i)).WholeWords (EltTy.packing .f32)

variable [Facts₀]

def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x144_S144x128_S2000x128_1_0_0_1_n_n : DotDims S2000x144 S144x128 S2000x128 where
  lhsContracting := [1]
  rhsContracting := [0]
  lhsNonContracting := [0]
  rhsNonContracting := [1]
  lhsBatch := []
  rhsBatch := []
  wf := dot_S2000x144_S144x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S144x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S2000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x64 : Shape := ⟨2, ![100000, 64]⟩
abbrev S3200000x16 : Shape := ⟨2, ![3200000, 16]⟩
abbrev S64x64 : Shape := ⟨2, ![64, 64]⟩
abbrev S144x128 : Shape := ⟨2, ![144, 128]⟩
abbrev S128 : Shape := ⟨1, ![128]⟩
abbrev S128x64 : Shape := ⟨2, ![128, 64]⟩
abbrev S64 : Shape := ⟨1, ![64]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S_ : Shape := ⟨0, ![]⟩
abbrev S100000x16 : Shape := ⟨2, ![100000, 16]⟩
abbrev S3200000x1 : Shape := ⟨2, ![3200000, 1]⟩
abbrev S100000x1 : Shape := ⟨2, ![100000, 1]⟩
abbrev S100000x144 : Shape := ⟨2, ![100000, 144]⟩
abbrev S100000x128 : Shape := ⟨2, ![100000, 128]⟩
abbrev S1x128 : Shape := ⟨2, ![1, 128]⟩
abbrev S1x64 : Shape := ⟨2, ![1, 64]⟩

abbrev nBuf : Space → Nat
  | .hbm => 47
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S3200000x16, .f32⟩
  | .hbm, ⟨2, _⟩ => ⟨S64x64, .f32⟩
  | .hbm, ⟨3, _⟩ => ⟨S144x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x3200000, .i32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S_, .f32⟩
  | .hbm, ⟨12, _⟩ => ⟨S100000x16, .f32⟩
  | .hbm, ⟨13, _⟩ => ⟨S3200000x1, .i32⟩
  | .hbm, ⟨14, _⟩ => ⟨S100000x16, .f32⟩
  | .hbm, ⟨15, _⟩ => ⟨S_, .f32⟩
  | .hbm, ⟨16, _⟩ => ⟨S3200000x1, .f32⟩
  | .hbm, ⟨17, _⟩ => ⟨S_, .f32⟩
  | .hbm, ⟨18, _⟩ => ⟨S100000x1, .f32⟩
  | .hbm, ⟨19, _⟩ => ⟨S3200000x1, .i32⟩
  | .hbm, ⟨20, _⟩ => ⟨S100000x1, .f32⟩
  | .hbm, ⟨21, _⟩ => ⟨S_, .f32⟩
  | .hbm, ⟨22, _⟩ => ⟨S100000x1, .f32⟩
  | .hbm, ⟨23, _⟩ => ⟨S100000x1, .f32⟩
  | .hbm, ⟨24, _⟩ => ⟨S100000x16, .f32⟩
  | .hbm, ⟨25, _⟩ => ⟨S100000x16, .f32⟩
  | .hbm, ⟨26, _⟩ => ⟨S_, .i32⟩
  | .hbm, ⟨27, _⟩ => ⟨S100000, .i32⟩
  | .hbm, ⟨28, _⟩ => ⟨S100000, .i1⟩
  | .hbm, ⟨29, _⟩ => ⟨S_, .i32⟩
  | .hbm, ⟨30, _⟩ => ⟨S100000, .i32⟩
  | .hbm, ⟨31, _⟩ => ⟨S100000, .i32⟩
  | .hbm, ⟨32, _⟩ => ⟨S100000, .i32⟩
  | .hbm, ⟨33, _⟩ => ⟨S100000x1, .i32⟩
  | .hbm, ⟨34, _⟩ => ⟨S100000x64, .f32⟩
  | .hbm, ⟨35, _⟩ => ⟨S100000x144, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  slices_S2x3200000_S1x3200000_1_0 : S2x3200000.Slices ![1, 0] S1x3200000
  shapeCasts_S1x3200000_S3200000 : S1x3200000.ShapeCasts S3200000
  bcast_S_S100000x16 : S_.BroadcastsInDim S100000x16 (![] : Fin 0 → Fin S100000x16.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x16_0_1 : S100000x1.BroadcastsInDim S100000x16 (![0, 1] : Fin 2 → Fin S100000x16.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x16_S100000x64_S100000x144_d1 : Shape.Concatenates [S100000x64, S100000x16, S100000x64] S100000x144 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000x16_S3200000x1_S3200000x16_1_0_0_1_wf : ScatterDims.WF S100000x16 S3200000x1 S3200000x16 [1] [0] [0] 1
  scatter_S100000x1_S3200000x1_S3200000x1_1_0_0_1_wf : ScatterDims.WF S100000x1 S3200000x1 S3200000x1 [1] [0] [0] 1
  gather_S64x64_S100000x1_S100000x64_1_0_n_n_0_1_164_wf : GatherDims.WF S64x64 S100000x1 S100000x64 [1] [0] [] [0] [] 1 ![1, 64]
  dot_S100000x144_S144x128_S100000x128_1_0_0_1_n_n_wf : DotDims.WF S100000x144 S144x128 S100000x128 [1] [0] [0] [1] [] []
  dot_S100000x128_S128x64_S100000x64_1_0_0_1_n_n_wf : DotDims.WF S100000x128 S128x64 S100000x64 [1] [0] [0] [1] [] []

variable [Facts₀]

def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def gather_S64x64_S100000x1_S100000x64_1_0_n_n_0_1_164 : GatherDims S64x64 S100000x1 S100000x64 where
  offsetDims := [1]
  collapsedSliceDims := [0]
  operandBatchingDims := []
  startIndicesBatchingDims := []
  startIndexMap := [0]
  indexVectorDim := 1
  sliceSizes := ![1, 64]
  wf := gather_S64x64_S100000x1_S100000x64_1_0_n_n_0_1_164_wf
def dot_S100000x144_S144x128_S100000x128_1_0_0_1_n_n : DotDims S100000x144 S144x128 S100000x128 where
  lhsContracting := [1]
  rhsContracting := [0]
  lhsNonContracting := [0]
  rhsNonContracting := [1]
  lhsBatch := []
  rhsBatch := []
  wf := dot_S100000x144_S144x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelBlocks.lean ====
/-
  The kernel's grid: which rows of which array each point's blocks are.

  Grid point `t` works on nodes `2000·t … 2000·t + 1999`: its blocks of the node features, of the edge averages and of
  the graph numbers are those rows of their arrays, the graph table and the two layers come whole at every point, and
  what it writes back is those rows of the result. Row `r` of a block is node `2000·t + r`. The 50 blocks tile the result.
-/
import proofs.«412594_j5188320494485_1_alg».proof.Proof.Gen.KernelIdeal.Value
import Idealize.ShloMosaic.Lib.ValueIdx

set_option maxRecDepth 16384

noncomputable section

namespace Cert.KernelIdeal.KernelBlocks

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps, decided over the 50 grid points: the three row-blocked inputs move with the output down the
    rows, the five whole inputs stay at block (0, 0), and the output's row-block number is below 50. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (1 : Fin 2) = 0 ∧ win0_8.index t (0 : Fin 2) ≤ 49 :=
  (by decide +kernel : ∀ t : Fin grid0.N, _)

/-- Every row-block of the result is SOME point's. -/
theorem idx_onto : ∀ q : Fin 50, ∃ t : Fin cfg0.N, win0_8.index t = ![q.val, 0] :=
  (by decide +kernel : ∀ q : Fin 50, ∃ t : Fin grid0.N, win0_8.index t = ![q.val, 0])

/-- The node that row `r` of point `t`'s blocks belongs to. -/
def nodeAt (t : Fin cfg0.N) (r : Fin 2000) : Fin 100000 :=
  ⟨win0_8.index t (0 : Fin 2) * 2000 + r.val, by have := (idx_facts t).2.2.2.2.2.2.2.2.2.2.2.2.2.2.2.2.2; have := r.isLt; omega⟩

/-! ## The input blocks at a point, read at an index -/

theorem xblk_apply (c : Dev nD) (t : Fin cfg0.N) (r : Fin 2000) (k : Fin 64) :
    iblk m c 0 t (ix2 r k) = V m c main_arg0 (ix2 (nodeAt t r) k) := by
  obtain ⟨e0, e1, -⟩ := idx_facts t
  show V m c main_arg0 (((cfg0.win 0).blk t).view.emb (ix2 r k)) = _
  refine congrArg (V m c main_arg0) (funext fun a => Fin.ext ?_)
  match a with
  | ⟨0, _⟩ => show win0_0.index t (0 : Fin 2) * 2000 + 1 * r.val = win0_8.index t (0 : Fin 2) * 2000 + r.val; omega
  | ⟨1, _⟩ => show win0_0.index t (1 : Fin 2) * 64 + 1 * k.val = k.val; omega

/-- Any array `A` of 16 columns, read through the second window's block at point `t` at `(r, k)`, is `A` at node
    `2000·t + r` and column `k`. -/
theorem eblk_read (A : S100000x16.Idx → EReal) (t : Fin cfg0.N) (r : Fin 2000) (k : Fin 16) :
    ((cfg0.win 1).blk t).view.read (Elt Ideal) A (ix2 r k) = A (ix2 (nodeAt t r) k) := by
  obtain ⟨-, -, e0, e1, -⟩ := idx_facts t
  show A (((cfg0.win 1).blk t).view.emb (ix2 r k)) = _
  refine congrArg A (funext fun a => Fin.ext ?_)
  match a with
  | ⟨0, _⟩ => show win0_1.index t (0 : Fin 2) * 2000 + 1 * r.val = win0_8.index t (0 : Fin 2) * 2000 + r.val; omega
  | ⟨1, _⟩ => show win0_1.index t (1 : Fin 2) * 16 + 1 * k.val = k.val; omega

theorem eblk_apply (c : Dev nD) (t : Fin cfg0.N) (r : Fin 2000) (k : Fin 16) :
    iblk m c 1 t (ix2 r k) = V m c main_v12 (ix2 (nodeAt t r) k) := by
  unfold iblk
  exact eblk_read _ t r k

theorem bblk_apply (c : Dev nD) (t : Fin cfg0.N) (r : Fin 2000) :
    iblk m c 2 t (ix2 r (0 : Fin 1)) = V m c main_v13 (ix2 (nodeAt t r) (0 : Fin 1)) := by
  obtain ⟨-, -, -, -, e0, e1, -⟩ := idx_facts t
  show V m c main_v13 (((cfg0.win 2).blk t).view.emb (ix2 r (0 : Fin 1))) = _
  refine congrArg (V m c main_v13) (funext fun a => Fin.ext ?_)
  match a with
  | ⟨0, _⟩ => show win0_2.index t (0 : Fin 2) * 2000 + 1 * r.val = win0_8.index t (0 : Fin 2) * 2000 + r.val; omega
  | ⟨1, _⟩ => show win0_2.index t (1 : Fin 2) * 1 + 1 * 0 = 0; omega

theorem ublk_apply (c : Dev nD) (t : Fin cfg0.N) (g k : Fin 64) :
    iblk m c 3 t (ix2 g k) = V m c main_arg2 (ix2 g k) := by
  obtain ⟨-, -, -, -, -, -, e0, e1, -⟩ := idx_facts t
  show V m c main_arg2 (((cfg0.win 3).blk t).view.emb (ix2 g k)) = _
  refine congrArg (V m c main_arg2) (funext fun a => Fin.ext ?_)
  match a with
  | ⟨0, _⟩ => show win0_3.index t (0 : Fin 2) * 64 + 1 * g.val = g.val; omega
  | ⟨1, _⟩ => show win0_3.index t (1 : Fin 2) * 64 + 1 * k.val = k.val; omega

theorem w1blk_eq (c : Dev nD) (t : Fin cfg0.N) : iblk m c 4 t = V m c main_arg3 := by
  obtain ⟨-, -, -, -, -, -, -, -, e0, e1, -⟩ := idx_facts t
  funext y
  show V m c main_arg3 (((cfg0.win 4).blk t).view.emb y) = _
  refine congrArg (V m c main_arg3) (funext fun a => Fin.ext ?_)
  match a with
  | ⟨0, _⟩ => show win0_4.index t (0 : Fin 2) * 144 + 1 * (y 0).val = (y 0).val; omega
  | ⟨1, _⟩ => show win0_4.index t (1 : Fin 2) * 128 + 1 * (y 1).val = (y 1).val; omega

theorem b1blk_apply (c : Dev nD) (t : Fin cfg0.N) (h : Fin 128) :
    iblk m c 5 t (ix2 (0 : Fin 1) h) = V m c main_v14 (ix2 (0 : Fin 1) h) := by
  obtain ⟨-, -, -, -, -, -, -, -, -, -, e0, e1, -⟩ := idx_facts t
  show V m c main_v14 (((cfg0.win 5).blk t).view.emb (ix2 (0 : Fin 1) h)) = _
  refine congrArg (V m c main_v14) (funext fun a => Fin.ext ?_)
  match a with
  | ⟨0, _⟩ => show win0_5.index t (0 : Fin 2) * 1 + 1 * 0 = 0; omega
  | ⟨1, _⟩ => show win0_5.index t (1 : Fin 2) * 128 + 1 * h.val = h.val; omega

theorem w2blk_eq (c : Dev nD) (t : Fin cfg0.N) : iblk m c 6 t = V m c main_arg5 := by
  obtain ⟨-, -, -, -, -, -, -, -, -, -, -, -, e0, e1, -⟩ := idx_facts t
  funext y
  show V m c main_arg5 (((cfg0.win 6).blk t).view.emb y) = _
  refine congrArg (V m c main_arg5) (funext fun a => Fin.ext ?_)
  match a with
  | ⟨0, _⟩ => show win0_6.index t (0 : Fin 2) * 128 + 1 * (y 0).val = (y 0).val; omega
  | ⟨1, _⟩ => show win0_6.index t (1 : Fin 2) * 64 + 1 * (y 1).val = (y 1).val; omega

theorem b2blk_apply (c : Dev nD) (t : Fin cfg0.N) (j : Fin 64) :
    iblk m c 7 t (ix2 (0 : Fin 1) j) = V m c main_v15 (ix2 (0 : Fin 1) j) := by
  obtain ⟨-, -, -, -, -, -, -, -, -, -, -, -, -, -, e0, e1, -⟩ := idx_facts t
  show V m c main_v15 (((cfg0.win 7).blk t).view.emb (ix2 (0 : Fin 1) j)) = _
  refine congrArg (V m c main_v15) (funext fun a => Fin.ext ?_)
  match a with
  | ⟨0, _⟩ => show win0_7.index t (0 : Fin 2) * 1 + 1 * 0 = 0; omega
  | ⟨1, _⟩ => show win0_7.index t (1 : Fin 2) * 64 + 1 * j.val = j.val; omega

/-- Where row `r`, channel `j` of point `t`'s output block lies in the result array. -/
theorem oblk_emb (t : Fin cfg0.N) (r : Fin 2000) (j : Fin 64) :
    ((cfg0.win 8).blk t).view.emb (ix2 r j) = ix2 (nodeAt t r) j := by
  obtain ⟨-, -, -, -, -, -, -, -, -, -, -, -, -, -, -, -, e1, -⟩ := idx_facts t
  refine funext fun a => Fin.ext ?_
  match a with
  | ⟨0, _⟩ => show win0_8.index t (0 : Fin 2) * 2000 + 1 * r.val = win0_8.index t (0 : Fin 2) * 2000 + r.val; omega
  | ⟨1, _⟩ => show win0_8.index t (1 : Fin 2) * 64 + 1 * j.val = j.val; omega

/-- A block `P` written back at point `t` is block `t` of an array `G` when each of its rows is the node's row of `G`. -/
theorem cut_eq_read (t : Fin cfg0.N) (P : S2000x64.Idx → EReal) (G : S100000x64.Idx → EReal)
    (hrow : ∀ (r : Fin 2000) (j : Fin 64), P (ix2 r j) = G (ix2 (nodeAt t r) j)) :
    (cfg0.win 8).cut (grid0.coords t) P = ((cfg0.win 8).blk t).view.read (Elt Ideal) G := by
  funext y
  obtain ⟨r, j, rfl⟩ : ∃ (r : Fin 2000) (j : Fin 64), y = ix2 r j := ⟨y 0, y 1, eq_ix2 y⟩
  show P (ix2 r j) = G (((cfg0.win 8).blk t).view.emb (ix2 r j))
  rw [oblk_emb]
  exact hrow r j

/-- An index of the result is in point `t`'s block iff each coordinate is in the block's range on its axis. -/
theorem mem_blk (t : Fin cfg0.N) (i : S100000x64.Idx) :
    i ∈ ((cfg0.win 8).blk t).view.set ↔ ∀ a : Fin 2, win0_8.index t a * S2000x64.size a ≤ (i a).val ∧ (i a).val < win0_8.index t a * S2000x64.size a + S2000x64.size a := by
  show i ∈ ((View.whole main_v16).slice (win0_8.rect t)).set ↔ _
  rw [View.set_slice_whole, Rect.mem_set_unit]
  exact Iff.rfl

/-- The 50 blocks tile the result: node `n`'s row is in the block of point `n / 2000`. -/
theorem cover (i : S100000x64.Idx) : ∃ t : Fin cfg0.N, (cfg0.win 8).flush t = true ∧ i ∈ ((cfg0.win 8).blk t).view.set := by
  have hi0 : (i 0).val < 100000 := (i 0).isLt
  have hi1 : (i 1).val < 64 := (i 1).isLt
  obtain ⟨t, ht⟩ := idx_onto ⟨(i 0).val / 2000, by omega⟩
  have q0 : win0_8.index t (0 : Fin 2) = (i 0).val / 2000 := congrFun ht 0
  have q1 : win0_8.index t (1 : Fin 2) = 0 := congrFun ht 1
  refine ⟨t, flush0_8 t, ?_⟩
  rw [mem_blk]
  intro a
  match a with
  | ⟨0, _⟩ => show win0_8.index t (0 : Fin 2) * 2000 ≤ (i 0).val ∧ (i 0).val < win0_8.index t (0 : Fin 2) * 2000 + 2000; omega
  | ⟨1, _⟩ => show win0_8.index t (1 : Fin 2) * 64 ≤ (i 1).val ∧ (i 1).val < win0_8.index t (1 : Fin 2) * 64 + 64; omega

end Cert.KernelIdeal.KernelBlocks

end
-- ==== Proof.NodeRow.lean ====
/-
  One node of the graph network, as a function of its own row.

  A node's input row has 144 entries: its 64 features, then the 16 averaged edge features that arrive at it, then the 64
  features of the graph it belongs to (row `batch[i]` of the graph table `u`). Two dense layers follow, with a rectifier
  between them: `hid_h = max (∑ₖ row_k · W1[k,h] + b1[h]) 0`, `out_j = ∑ₕ hid_h · W2[h,j] + b2[j]`.
  The two programs differ only in HOW they fetch the graph's row: one reads `u` at the row index, the other multiplies the
  indicator row `[batch[i] = g]_g` into `u`; with `0 ≤ batch[i] < 64` both are row `batch[i]` (`onehot_sum`).
  Also here: a three-piece concatenation along the columns read at a coordinate (`concat3_apply`).
-/
import Idealize.ShloMosaic.PureOps.Ideal
import Idealize.ShloMosaic.Lib.ValueIdx
import Idealize.ShloMosaic.Lib.Pipeline.Value
import Idealize.ShloMosaic.Lib.Affine

noncomputable section

open scoped BigOperators

namespace NodeRow

open Idealize.ShloMosaic Idealize.ShloMosaic.ValueIdx

/-- A node's input row from its three parts: entries 0–63 the node's features, 64–79 the edge average, 80–143 the graph's
    features. -/
def featRow (x : Fin 64 → EReal) (e : Fin 16 → EReal) (g : Fin 64 → EReal) (k : Fin 144) : EReal :=
  if h : k.val < 64 then x ⟨k.val, h⟩
  else if h2 : k.val < 80 then e ⟨k.val - 64, by omega⟩
  else g ⟨k.val - 80, by have := k.isLt; omega⟩

/-- Output channel `j` of a node with input row `f`: the second dense layer of the rectified first. -/
def rowOut (f : Fin 144 → EReal) (W1 : (⟨2, ![144, 128]⟩ : Shape).Idx → EReal) (b1 : Fin 128 → EReal)
    (W2 : (⟨2, ![128, 64]⟩ : Shape).Idx → EReal) (b2 : Fin 64 → EReal) (j : Fin 64) : EReal :=
  (∑ h : Fin 128, max ((∑ k : Fin 144, f k * W1 (ix2 k h)) + b1 h) (Ideal.ofBits .f32 0x00000000#32) * W2 (ix2 h j)) + b2 j

/-- Row `b` of the graph table, the word `b` read as a row number (reduced mod 64 so that the term is total; for
    `0 ≤ b < 64` it is `b` itself). -/
def graphRow (u : (⟨2, ![64, 64]⟩ : Shape).Idx → EReal) (b : BitVec 32) (c : Fin 64) : EReal :=
  u (ix2 (⟨b.toNat % 64, Nat.mod_lt _ (by decide)⟩ : Fin 64) c)

/-- Three pieces of 64, 16 and 64 columns joined along the columns, read at row `i` and column `k`: the input row. -/
theorem concat3_apply {R : Nat} (x : (⟨2, ![R, 64]⟩ : Shape).Idx → EReal) (e : (⟨2, ![R, 16]⟩ : Shape).Idx → EReal)
    (g : (⟨2, ![R, 64]⟩ : Shape).Idx → EReal)
    (h : Shape.Concatenates ([(⟨⟨2, ![R, 64]⟩, x⟩ : (s : Shape) × (s.Idx → EReal)), ⟨⟨2, ![R, 16]⟩, e⟩, ⟨⟨2, ![R, 64]⟩, g⟩].map (·.1))
      ⟨2, ![R, 144]⟩ 1)
    (i : Fin R) (k : Fin 144) :
    concatenate ⟨2, ![R, 144]⟩ 1 [⟨⟨2, ![R, 64]⟩, x⟩, ⟨⟨2, ![R, 16]⟩, e⟩, ⟨⟨2, ![R, 64]⟩, g⟩] h (ix2 i k)
      = featRow (fun c => x (ix2 i c)) (fun c => e (ix2 i c)) (fun c => g (ix2 i c)) k := by
  unfold featRow
  by_cases h1 : k.val < 64
  · rw [dif_pos h1]
    refine concatenate_apply_piece (1 : Fin 2) _ h (ix2 i k) 0 (by show 0 < 3; omega) ⟨2, ![R, 64]⟩ x rfl rfl 0 rfl
      (ix2 i ⟨k.val, h1⟩) (fun b hb => ?_) ?_
    · match b with
      | ⟨0, _⟩ => rfl
      | ⟨1, _⟩ => exact absurd rfl hb
    · show 0 + k.val = k.val; omega
  · rw [dif_neg h1]
    by_cases h2 : k.val < 80
    · rw [dif_pos h2]
      refine concatenate_apply_piece (1 : Fin 2) _ h (ix2 i k) 1 (by show 1 < 3; omega) ⟨2, ![R, 16]⟩ e rfl rfl 64 rfl
        (ix2 i ⟨k.val - 64, by omega⟩) (fun b hb => ?_) ?_
      · match b with
        | ⟨0, _⟩ => rfl
        | ⟨1, _⟩ => exact absurd rfl hb
      · show 64 + (k.val - 64) = k.val; omega
    · rw [dif_neg h2]
      refine concatenate_apply_piece (1 : Fin 2) _ h (ix2 i k) 2 (by show 2 < 3; omega) ⟨2, ![R, 64]⟩ g rfl rfl 80 rfl
        (ix2 i ⟨k.val - 80, by have := k.isLt; omega⟩) (fun b hb => ?_) ?_
      · match b with
        | ⟨0, _⟩ => rfl
        | ⟨1, _⟩ => exact absurd rfl hb
      · show 80 + (k.val - 80) = k.val; omega

/-- The indicator of `b = g` as a number: the comparison's bit widened to a word and read signed, 1 or 0. -/
theorem indicator_val (b : BitVec 32) (g : Fin 64) :
    ((((IntOp.cmpi .eq b (BitVec.ofNat 32 g.val)).setWidth 32).toInt : ℝ) : EReal)
      = if b = BitVec.ofNat 32 g.val then 1 else 0 := by
  by_cases hb : b = BitVec.ofNat 32 g.val
  · rw [if_pos hb, IntOp.cmpi_eq.mpr hb]; norm_num
  · rw [if_neg hb]
    have : IntOp.cmpi .eq b (BitVec.ofNat 32 g.val) = 0#1 := eq_zero_of_ne_one (fun h => hb (IntOp.cmpi_eq.mp h))
    rw [this]; norm_num

/-- THE INDICATOR ROW TIMES THE TABLE IS THE TABLE'S ROW: for a row number `0 ≤ b < 64`, the sum over `g` of
    `[b = g] · u[g, c]` has one term that is not zero, `u[b, c]` (`0 · y = 0` for every extended real `y`). -/
theorem onehot_sum (u : (⟨2, ![64, 64]⟩ : Shape).Idx → EReal) (b : BitVec 32) (h0 : 0 ≤ b.toInt) (h1 : b.toInt < 64)
    (c : Fin 64) :
    ∑ g : Fin 64, ((((IntOp.cmpi .eq b (BitVec.ofNat 32 g.val)).setWidth 32).toInt : ℝ) : EReal) * u (ix2 g c)
      = graphRow u b c := by
  have hb : b.toNat < 64 := by
    have := BitVec.toInt_eq_toNat_cond b
    split_ifs at this <;> omega
  have key : ∀ g : Fin 64, (b = BitVec.ofNat 32 g.val) ↔ g = (⟨b.toNat, hb⟩ : Fin 64) := fun g => by
    constructor
    · intro h; apply Fin.ext; show g.val = b.toNat
      rw [h, BitVec.toNat_ofNat, Nat.mod_eq_of_lt (by have := g.isLt; omega)]
    · intro h; rw [h]; simp
  simp only [indicator_val, key]
  rw [Finset.sum_eq_single (⟨b.toNat, hb⟩ : Fin 64)]
  · rw [if_pos rfl, one_mul]; unfold graphRow
    congr 2; apply Fin.ext; show b.toNat = b.toNat % 64; omega
  · intro g _ hg; rw [if_neg hg, zero_mul]
  · intro h; exact absurd (Finset.mem_univ _) h

end NodeRow

end
-- ==== Proof.KernelRow.lean ====
/-
  The kernel body's result, row by row.

  The body computes, for the 2000 nodes of its block at once, what `NodeRow.rowOut` computes for one: entry `(r, j)` of what
  it stores is the node function of row `r` of its three joined blocks. Its graph rows are the product of the indicator
  matrix `[batch_r = g]` (a comparison with a column counter, widened and converted) with the graph table: entry `(r, c)`
  of that product is `∑_g [batch_r = g] · u[g, c]`. Changes of float format are the identity on extended reals, a product
  into a zero accumulator is the plain sum over the contracted coordinate, and the one-row biases are laid down the rows.
-/
import proofs.«412594_j5188320494485_1_alg».proof.Proof.Gen.KernelIdeal.Skeleton
import proofs.«412594_j5188320494485_1_alg».proof.Proof.NodeRow
import Idealize.ShloMosaic.Lib.StackMember
import Idealize.ShloMosaic.Lib.Pipeline.Value

noncomputable section

open scoped BigOperators

namespace Cert.KernelIdeal.KernelRow

open Cert.KernelIdeal Cert.KernelIdeal.Gen Idealize.ShloMosaic Idealize.ShloMosaic.ValueIdx NodeRow

/-- A block product into a zero accumulator, read at `(a, b)`: the sum over the contracted coordinate. -/
theorem matmul_plain_apply {m k n : Nat} {φ₁ φ₂ : FTy} (A : FVec Ideal ⟨2, ![m, k]⟩ φ₁) (B : FVec Ideal ⟨2, ![k, n]⟩ φ₂)
    (a : Fin m) (b : Fin n) :
    matmul (DotDims.plain m k n) none A B (constant ⟨2, ![m, n]⟩ .f32 0x00000000#32) (ix2 a b)
      = ∑ c : Fin k, A (ix2 a c) * B (ix2 c b) := by
  rw [matmul_zero_eq_dotGeneral]; exact StackMember.dotGeneral_plain_apply none A B a b

/-- The body's three products are plain ones: rows by columns. -/
theorem dot_graph_eq : dot_S2000x64_S64x64_S2000x64_1_0_0_1_n_n = DotDims.plain 2000 64 64 := rfl
theorem dot_first_eq : dot_S2000x144_S144x128_S2000x128_1_0_0_1_n_n = DotDims.plain 2000 144 128 := rfl
theorem dot_second_eq : dot_S2000x128_S128x64_S2000x64_1_0_0_1_n_n = DotDims.plain 2000 128 64 := rfl

/-- A one-row bias of 128 laid down 2000 rows reads its entry of the column. -/
theorem bias128_apply (x : (⟨2, ![1, 128]⟩ : Shape).Idx → EReal) (hb : (⟨2, ![1, 128]⟩ : Shape).Broadcasts ⟨2, ![2000, 128]⟩)
    (r : Fin 2000) (h : Fin 128) : broadcastTo ⟨2, ![2000, 128]⟩ x hb (ix2 r h) = x (ix2 (0 : Fin 1) h) :=
  broadcastTo_apply x hb (ix2 r h) (ix2 (0 : Fin 1) h) (fun a => by
    match a with
    | ⟨0, _⟩ => rfl
    | ⟨1, _⟩ => rfl)

/-- A one-row bias of 64 laid down 2000 rows reads its entry of the column. -/
theorem bias64_apply (x : (⟨2, ![1, 64]⟩ : Shape).Idx → EReal) (hb : (⟨2, ![1, 64]⟩ : Shape).Broadcasts ⟨2, ![2000, 64]⟩)
    (r : Fin 2000) (j : Fin 64) : broadcastTo ⟨2, ![2000, 64]⟩ x hb (ix2 r j) = x (ix2 (0 : Fin 1) j) :=
  broadcastTo_apply x hb (ix2 r j) (ix2 (0 : Fin 1) j) (fun a => by
    match a with
    | ⟨0, _⟩ => rfl
    | ⟨1, _⟩ => rfl)

/-- Entry `(r, g)` of the indicator matrix: the block's row numbers laid along the 64 columns, compared with the column
    counter, the bit widened to a word and converted: the number `[batch_r = g]`. -/
theorem indicator_apply (v0 : Vec Ideal S2000x1 .i32) (hb : S2000x1.Broadcasts S2000x64) (hio : S2000x64.Iotas .tc 32 [1])
    (hlt : 1 < 32) (r : Fin 2000) (g : Fin 64) :
    (sitofp .f32 (extui 32 (cmpi .eq (broadcastTo S2000x64 (v0 : IVec S2000x1 32) hb) (iota .tc S2000x64 32 [1] hio)) hlt)
        : FVec Ideal S2000x64 .f32) (ix2 r g)
      = ((((IntOp.cmpi .eq (v0 (ix2 r (0 : Fin 1))) (BitVec.ofNat 32 g.val)).setWidth 32).toInt : ℝ) : EReal) := by
  show ((((IntOp.cmpi .eq (broadcastTo S2000x64 (v0 : IVec S2000x1 32) hb (ix2 r g)) (iota .tc S2000x64 32 [1] hio (ix2 r g))).setWidth 32).toInt : ℝ) : EReal) = _
  rw [iota_single_apply, broadcastTo_apply (v0 : IVec S2000x1 32) hb (ix2 r g) (ix2 r (0 : Fin 1)) (fun a => by
    match a with
    | ⟨0, _⟩ => rfl
    | ⟨1, _⟩ => rfl)]

/-- THE BODY'S RESULT AT ROW `r`, CHANNEL `j`: the node function of row `r` of the block's three parts — the node
    features, the edge averages, and the indicator row times the graph table. -/
theorem pay_apply (v0 : Vec Ideal S2000x1 .i32) (v8 : Vec Ideal S64x64 .f32) (v11 : Vec Ideal S2000x64 .f32)
    (v12 : Vec Ideal S2000x16 .f32) (v16 : Vec Ideal S144x128 .f32) (v18 : Vec Ideal S1x128 .f32)
    (v25 : Vec Ideal S128x64 .f32) (v27 : Vec Ideal S1x64 .f32) (r : Fin 2000) (j : Fin 64) :
    k0_pay1 (F := Ideal) v0 v8 v11 v12 v16 v18 v25 v27 (ix2 r j)
      = rowOut (featRow (fun c => v11 (ix2 r c)) (fun c => v12 (ix2 r c))
          (fun c => ∑ g : Fin 64, ((((IntOp.cmpi .eq (v0 (ix2 r (0 : Fin 1))) (BitVec.ofNat 32 g.val)).setWidth 32).toInt : ℝ) : EReal)
            * v8 (ix2 g c)))
          v16 (fun h => v18 (ix2 (0 : Fin 1) h)) v25 (fun j => v27 (ix2 (0 : Fin 1) j)) j := by
  unfold k0_pay1
  dsimp only
  rw [dot_graph_eq, dot_first_eq, dot_second_eq]
  unfold rowOut
  simp only [shapeCast_self, addf_apply, matmul_plain_apply, truncf_apply, maximumf_apply, broadcast_apply, bias128_apply,
    bias64_apply, concat3_apply, Ideal.ofBits_def]
  -- what is left differs only in the indicator's entry, inside the graph part of the row
  refine congrArg (· + v27 (ix2 (0 : Fin 1) j)) (Finset.sum_congr rfl fun h _ => ?_)
  refine congrArg (fun z => max (z + v18 (ix2 (0 : Fin 1) h)) (Ideal.ofBits .f32 0x00000000#32) * v25 (ix2 h j))
    (Finset.sum_congr rfl fun k _ => ?_)
  refine congrArg (fun f => featRow (fun c => v11 (ix2 r c)) (fun c => v12 (ix2 r c)) f k * v16 (ix2 k h))
    (funext fun c => Finset.sum_congr rfl fun g _ => ?_)
  exact congrArg (· * v8 (ix2 g c)) (indicator_apply v0 _ _ _ r g)

end Cert.KernelIdeal.KernelRow

end
-- ==== Proof.NodeArray.lean ====
/-
  All the nodes at once: the result array as ONE function of the argument arrays.

  Entry `(i, j)` is the node function of node `i`'s row `[x_i | e_i | u[batch_i]]`, where `e` is the array of edge averages.
-/
import proofs.«412594_j5188320494485_1_alg».proof.Proof.NodeRow

noncomputable section

namespace NodeRow

open Idealize.ShloMosaic Idealize.ShloMosaic.ValueIdx

/-- The network's output for every node and channel, from the node features `x`, the edge averages `e`, the graph table
    `u`, the two layers `(W1, b1)`, `(W2, b2)` and each node's graph number `bt`. -/
def nodeOut (x : (⟨2, ![100000, 64]⟩ : Shape).Idx → EReal) (e : (⟨2, ![100000, 16]⟩ : Shape).Idx → EReal)
    (u : (⟨2, ![64, 64]⟩ : Shape).Idx → EReal) (W1 : (⟨2, ![144, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (bt : (⟨1, ![100000]⟩ : Shape).Idx → BitVec 32) :
    (⟨2, ![100000, 64]⟩ : Shape).Idx → EReal :=
  fun i => rowOut (featRow (fun c => x (ix2 (i 0) c)) (fun c => e (ix2 (i 0) c)) (graphRow u (bt (ix1 (i 0)))))
    W1 (fun h => b1 (ix1 h)) W2 (fun j => b2 (ix1 j)) (i 1)

end NodeRow

end
-- ==== Proof.KernelNode.lean ====
/-
  A row of the kernel body's result is a node's output.

  If row `r` of the body's blocks is node `n`'s row of the arrays — the node features, the edge averages, the graph number —
  and the whole operands are the graph table and the two layers, then entry `(r, j)` of what the body stores is entry `(n, j)`
  of the network's output: the indicator row of a graph number in range, times the table, is the table's row.
-/
import proofs.«412594_j5188320494485_1_alg».proof.Proof.KernelRow
import proofs.«412594_j5188320494485_1_alg».proof.Proof.NodeArray

noncomputable section

open scoped BigOperators

namespace Cert.KernelIdeal.KernelNode

open Cert.KernelIdeal Cert.KernelIdeal.Gen Cert.KernelIdeal.KernelRow
open Idealize.ShloMosaic Idealize.ShloMosaic.ValueIdx NodeRow

theorem row_eq (v0 : Vec Ideal S2000x1 .i32) (v8 : Vec Ideal S64x64 .f32) (v11 : Vec Ideal S2000x64 .f32)
    (v12 : Vec Ideal S2000x16 .f32) (v16 : Vec Ideal S144x128 .f32) (v18 : Vec Ideal S1x128 .f32)
    (v25 : Vec Ideal S128x64 .f32) (v27 : Vec Ideal S1x64 .f32)
    (X : S100000x64.Idx → EReal) (E : S100000x16.Idx → EReal) (U : S64x64.Idx → EReal) (W1 : S144x128.Idx → EReal)
    (B1 : S128.Idx → EReal) (W2 : S128x64.Idx → EReal) (B2 : S64.Idx → EReal) (BT : S100000.Idx → BitVec 32)
    (n : Fin 100000) (r : Fin 2000)
    (hx : ∀ k : Fin 64, v11 (ix2 r k) = X (ix2 n k)) (he : ∀ k : Fin 16, v12 (ix2 r k) = E (ix2 n k))
    (hb : v0 (ix2 r (0 : Fin 1)) = BT (ix1 n)) (hu : ∀ g k : Fin 64, v8 (ix2 g k) = U (ix2 g k))
    (hw1 : v16 = W1) (hb1 : ∀ h : Fin 128, v18 (ix2 (0 : Fin 1) h) = B1 (ix1 h))
    (hw2 : v25 = W2) (hb2 : ∀ j : Fin 64, v27 (ix2 (0 : Fin 1) j) = B2 (ix1 j))
    (h0 : 0 ≤ (BT (ix1 n)).toInt) (h1 : (BT (ix1 n)).toInt < 64) (j : Fin 64) :
    k0_pay1 (F := Ideal) v0 v8 v11 v12 v16 v18 v25 v27 (ix2 r j) = nodeOut X E U W1 B1 W2 B2 BT (ix2 n j) := by
  rw [pay_apply]
  unfold nodeOut
  have hg : (fun k : Fin 64 => ∑ g : Fin 64,
        ((((IntOp.cmpi .eq (v0 (ix2 r (0 : Fin 1))) (BitVec.ofNat 32 g.val)).setWidth 32).toInt : ℝ) : EReal) * v8 (ix2 g k))
      = graphRow U (BT (ix1 n)) := by
    funext k
    rw [hb]
    simp only [hu]
    exact onehot_sum U _ h0 h1 k
  rw [hg, funext hx, funext he, funext hb1, funext hb2, hw1, hw2]

end Cert.KernelIdeal.KernelNode

end
-- ==== Proof.KernelHost.lean ====
/-
  What the kernel's region finds in the arrays the host wrote before it.

  Before the one pallas_call the host computes the edge averages `e` (two scatter-adds of the edges into their target
  nodes — the attributes, and a count of ones — and the quotient by `max(count, 1)`), and re-declares three arguments
  with another shape: the graph numbers as a column `[100000, 1]`, the two biases as one-row matrices.
-/
import proofs.«412594_j5188320494485_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.KernelHost

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The edge averages: per node and attribute, the sum of the attributes of the edges arriving at the node over the number
    of those edges, or over one where there is none. -/
def edgeMean (x1 : FVec F S3200000x16 .f32) (x7 : IVec S2x3200000 32) : FVec F S100000x16 .f32 :=
  Host.divf
    (Host.scatterAdd scatter_S100000x16_S3200000x1_S3200000x16_1_0_0_1
      (broadcastInDim S100000x16 ![] bcast_S_S100000x16 (constant S_ .f32 0x00000000#32))
      (broadcastInDim S3200000x1 ![0] bcast_S3200000_S3200000x1_0
        (shapeCast _ (extractStridedSlice S1x3200000 ![1, 0] x7 slices_S2x3200000_S1x3200000_1_0) shapeCasts_S1x3200000_S3200000))
      x1)
    (broadcastInDim S100000x16 ![0, 1] bcast_S100000x1_S100000x16_0_1
      (maximumf
        (Host.scatterAdd scatter_S100000x1_S3200000x1_S3200000x1_1_0_0_1
          (broadcastInDim S100000x1 ![] bcast_S_S100000x1 (constant S_ .f32 0x00000000#32))
          (broadcastInDim S3200000x1 ![0] bcast_S3200000_S3200000x1_0
            (shapeCast _ (extractStridedSlice S1x3200000 ![1, 0] x7 slices_S2x3200000_S1x3200000_1_0) shapeCasts_S1x3200000_S3200000))
          (broadcastInDim S3200000x1 ![] bcast_S_S3200000x1 (constant S_ .f32 0x3F800000#32)))
        (broadcastInDim S100000x1 ![] bcast_S_S100000x1 (constant S_ .f32 0x3F800000#32))))

variable (m : (ℓ : Loc nD τ sig) → Buf (Elt F) ℓ)

/-- The region's second operand holds the edge averages of the edge attributes and the edge list as launched. -/
theorem V_edgeMean (c : Dev nD) :
    (V m c main_v12 : S100000x16.Idx → Elt F .f32)
      = edgeMean (m ((c : Thread nD τ).loc main_arg1)) (m ((c : Thread nD τ).loc main_arg7)) := by
  dsimp only [Gen.V, Gen.hostOps0]; after_results; rfl

/-- Its third holds the graph numbers as a column. -/
theorem V_batchCol (c : Dev nD) :
    (V m c main_v13 : S100000x1.Idx → Elt F .i32)
      = shapeCast S100000x1 (m ((c : Thread nD τ).loc main_arg8)) shapeCasts_S100000_S100000x1 := by
  dsimp only [Gen.V, Gen.hostOps0]; after_results; rfl

/-- Its sixth holds the first bias as one row. -/
theorem V_bias1Row (c : Dev nD) :
    (V m c main_v14 : S1x128.Idx → Elt F .f32)
      = shapeCast S1x128 (m ((c : Thread nD τ).loc main_arg4)) shapeCasts_S128_S1x128 := by
  dsimp only [Gen.V, Gen.hostOps0]; after_results; rfl

/-- Its eighth holds the second bias as one row. -/
theorem V_bias2Row (c : Dev nD) :
    (V m c main_v15 : S1x64.Idx → Elt F .f32)
      = shapeCast S1x64 (m ((c : Thread nD τ).loc main_arg6)) shapeCasts_S64_S1x64 := by
  dsimp only [Gen.V, Gen.hostOps0]; after_results; rfl

/-! The three re-declared arguments, read at an index. -/

/-- Entry `(n, 0)` of the column of graph numbers is node `n`'s graph number. -/
theorem batchCol_apply (x8 : S100000.Idx → BitVec 32) (n : Fin 100000) :
    shapeCast S100000x1 x8 shapeCasts_S100000_S100000x1 (ix2 n (0 : Fin 1)) = x8 (ix1 n) :=
  shapeCast_apply x8 shapeCasts_S100000_S100000x1 (ix2 n (0 : Fin 1)) (ix1 n) (by
    rewrite [Shape.rowMajor_val_two, Shape.rowMajor_val_one]; show n.val = n.val * 1 + 0; omega)

/-- Entry `(0, h)` of the first bias's row is its entry `h`. -/
theorem bias1Row_apply {α : Type} (x4 : S128.Idx → α) (h : Fin 128) :
    shapeCast S1x128 x4 shapeCasts_S128_S1x128 (ix2 (0 : Fin 1) h) = x4 (ix1 h) :=
  shapeCast_apply x4 shapeCasts_S128_S1x128 (ix2 (0 : Fin 1) h) (ix1 h) (by
    rewrite [Shape.rowMajor_val_two, Shape.rowMajor_val_one]; show h.val = 0 * 128 + h.val; omega)

/-- Entry `(0, j)` of the second bias's row is its entry `j`. -/
theorem bias2Row_apply {α : Type} (x6 : S64.Idx → α) (j : Fin 64) :
    shapeCast S1x64 x6 shapeCasts_S64_S1x64 (ix2 (0 : Fin 1) j) = x6 (ix1 j) :=
  shapeCast_apply x6 shapeCasts_S64_S1x64 (ix2 (0 : Fin 1) j) (ix1 j) (by
    rewrite [Shape.rowMajor_val_two, Shape.rowMajor_val_one]; show j.val = 0 * 64 + j.val; omega)

end Cert.KernelIdeal.KernelHost

end
-- ==== Proof.KernelArray.lean ====
/-
  The kernel's result array: block by block it is the node function of the argument arrays.

  At grid point `t` the body stores, in row `r` of its output block, the output of node `2000·t + r`: its input blocks are
  that node's rows of the node features, of the edge averages the host computed and of the column of graph numbers, and
  the whole graph table and layers (Proof/KernelBlocks.lean, Proof/KernelHost.lean), so the row lemma of Proof/KernelNode.lean
  applies, the graph numbers being in range. The 50 blocks tile the array, which therefore ends holding the network's output.
-/
import proofs.«412594_j5188320494485_1_alg».proof.Proof.KernelBlocks
import proofs.«412594_j5188320494485_1_alg».proof.Proof.KernelNode
import proofs.«412594_j5188320494485_1_alg».proof.Proof.KernelHost

set_option maxRecDepth 16384

noncomputable section

namespace Cert.KernelIdeal.KernelArray

open Cert.KernelIdeal Cert.KernelIdeal.Gen Cert.KernelIdeal.KernelBlocks Cert.KernelIdeal.KernelNode Cert.KernelIdeal.KernelHost
open Idealize.ShloMosaic Idealize.ShloMosaic.TcCoe Idealize.SL.Sem Idealize.ShloMosaic.ValueIdx NodeRow
open Idealize.ShloMosaic.Pipeline (Dat)

/-- What the body leaves in its output buffer is its one payload of the input blocks: it loads each block whole and
    stores the payload over the whole buffer. -/
theorem out_eq_pay (x0 : Vec Ideal S2000x64 .f32) (x1 : Vec Ideal S2000x16 .f32) (x2 : Vec Ideal S2000x1 .i32)
    (x3 : Vec Ideal S64x64 .f32) (x4 : Vec Ideal S144x128 .f32) (x5 : Vec Ideal S1x128 .f32) (x6 : Vec Ideal S128x64 .f32)
    (x7 : Vec Ideal S1x64 .f32) :
    out0_8 x0 x1 x2 x3 x4 x5 x6 x7 = k0_pay1 (F := Ideal) x2 x3 x0 x1 x4 x5 x6 x7 := by
  unfold out0_8
  rw [View.canon_unit_zero zero_offsets]
  simp only [View.ld_unit_zero (S := S2000x1) zero_offsets, View.ld_unit_zero (S := S64x64) zero_offsets,
    View.ld_unit_zero (S := S2000x64) zero_offsets, View.ld_unit_zero (S := S2000x16) zero_offsets,
    View.ld_unit_zero (S := S144x128) zero_offsets, View.ld_unit_zero (S := S1x128) zero_offsets,
    View.ld_unit_zero (S := S128x64) zero_offsets, View.ld_unit_zero (S := S1x64) zero_offsets]

variable (m : (ℓ : Loc nD τ sig) → Buf (Elt Ideal) ℓ) (ρ : Dev nD → PrngReg)

/-- The result array, as a function of the argument arrays on core `c`. -/
def result (c : Dev nD) : S100000x64.Idx → EReal :=
  nodeOut (m ((c : Thread nD τ).loc main_arg0))
    (edgeMean (F := Ideal) (m ((c : Thread nD τ).loc main_arg1)) (m ((c : Thread nD τ).loc main_arg7)))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg8))

/-- The graph numbers are in range. -/
def InRange (c : Dev nD) : Prop :=
  ∀ i : Fin 100000, 0 ≤ (m ((c : Thread nD τ).loc main_arg8) (ix1 i)).toInt ∧ (m ((c : Thread nD τ).loc main_arg8) (ix1 i)).toInt < 64

/-- Row `r` of what point `t` stores is node `2000·t + r`'s output. -/
theorem stored_row (c : Dev nD) (hB : InRange m c) (t : Fin cfg0.N) (r : Fin 2000) (j : Fin 64) :
    k0_pay1 (F := Ideal) (iblk m c 2 t) (iblk m c 3 t) (iblk m c 0 t) (iblk m c 1 t) (iblk m c 4 t) (iblk m c 5 t)
        (iblk m c 6 t) (iblk m c 7 t) (ix2 r j)
      = result m c (ix2 (nodeAt t r) j) := by
  obtain ⟨h0, h1⟩ := hB (nodeAt t r)
  unfold result
  exact row_eq (iblk m c 2 t) (iblk m c 3 t) (iblk m c 0 t) (iblk m c 1 t) (iblk m c 4 t) (iblk m c 5 t) (iblk m c 6 t)
    (iblk m c 7 t) _ _ _ _ _ _ _ _ (nodeAt t r) r
    (fun k => by rw [xblk_apply, V_main_arg0])
    (fun k => by rw [eblk_apply, V_edgeMean])
    (by rw [bblk_apply, V_batchCol]; exact batchCol_apply _ _)
    (fun g k => by rw [ublk_apply, V_main_arg2])
    (by rw [w1blk_eq, V_main_arg3])
    (fun h => by rw [b1blk_apply, V_bias1Row]; exact bias1Row_apply _ _)
    (by rw [w2blk_eq, V_main_arg5])
    (fun j => by rw [b2blk_apply, V_bias2Row]; exact bias2Row_apply _ _)
    h0 h1 j

/-- WHAT POINT `t` WRITES BACK is block `t` of the result. -/
theorem flushed_eq (c : Dev nD) (hB : InRange m c) (t : Fin cfg0.N) :
    (dats m 0 c).flushed 8 t = ((cfg0.win 8).blk t).view.read (Elt Ideal) (result m c) := by
  rw [Value.flushed8, out_eq_pay]
  exact cut_eq_read t _ _ (stored_row m c hB t)

/-- THE ARRAY after the run is the result. -/
theorem final (c : Dev nD) (hB : InRange m c) : (dats m 0 c).arrAt 8 cfg0.N = result m c :=
  (dats m 0 c).arrAt_eq_of_cover 8 (result m c) (fun t _ => flushed_eq m c hB t) cover

/-- The kernel's run, read: the result array at the node function of the arguments, the arguments unchanged. -/
theorem run (hB : ∀ c, InRange m c) : θ_run defs (onTc (τ := τ) (main (F := Ideal))) ⟨m, fun _ => 0, ρ⟩ fun r => ∀ c : Dev nD,
      r.2.mem ((c : Thread nD τ).loc main_v16) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hB c)), (h c).2⟩) (Value.run_blocks m ρ)

end Cert.KernelIdeal.KernelArray

end
-- ==== Proof.RefRow.lean ====
/-
  The reference's result, node by node.

  Read one operation at a time, the reference's result at node `i` and channel `j` is the node function `NodeRow.rowOut`
  of the row `[x_i | e_i | g_i]` — `e` the edge average it computes first, `g` the rows of the graph table it gathers —
  and of the two layers' weights: its two matrix products are sums over the joined row and over the hidden units, its
  biases are broadcast down the nodes, its rectifier is a maximum with the zero word.
-/
import proofs.«412594_j5188320494485_1_alg».proof.Proof.Gen.ReferenceIdeal.Read
import proofs.«412594_j5188320494485_1_alg».proof.Proof.NodeRow

noncomputable section

open scoped BigOperators

namespace Cert.ReferenceIdeal.RefRow

open Cert.ReferenceIdeal Cert.ReferenceIdeal.Gen Cert.ReferenceIdeal.Read
open Idealize.ShloMosaic Idealize.ShloMosaic.ValueIdx NodeRow

/-! The index maps of the two products and of the two bias broadcasts, at coordinates. -/

theorem lhs_second (i : Fin 100000) (j : Fin 64) (h : Fin 128) : lidx_main_v26 (ix2 i j) h = ix2 i h :=
  funext fun a => Fin.ext (by match a with | ⟨0, _⟩ => rfl | ⟨1, _⟩ => rfl)
theorem rhs_second (i : Fin 100000) (j : Fin 64) (h : Fin 128) : ridx_main_v26 (ix2 i j) h = ix2 h j :=
  funext fun a => Fin.ext (by match a with | ⟨0, _⟩ => rfl | ⟨1, _⟩ => rfl)
theorem lhs_first (i : Fin 100000) (h : Fin 128) (k : Fin 144) : lidx_main_v21 (ix2 i h) k = ix2 i k :=
  funext fun a => Fin.ext (by match a with | ⟨0, _⟩ => rfl | ⟨1, _⟩ => rfl)
theorem rhs_first (i : Fin 100000) (h : Fin 128) (k : Fin 144) : ridx_main_v21 (ix2 i h) k = ix2 k h :=
  funext fun a => Fin.ext (by match a with | ⟨0, _⟩ => rfl | ⟨1, _⟩ => rfl)
theorem bias_first (i : Fin 100000) (h : Fin 128) : idx_main_v22 (idx_main_v23 (ix2 i h)) = ix1 h :=
  funext fun a => Fin.ext (by match a with | ⟨0, _⟩ => rfl)
theorem bias_second (i : Fin 100000) (j : Fin 64) : idx_main_v27 (idx_main_v28 (ix2 i j)) = ix1 j :=
  funext fun a => Fin.ext (by match a with | ⟨0, _⟩ => rfl)

variable (x0 : (⟨S100000x64, .f32⟩ : BufTy).Contents (Elt Ideal)) (x1 : (⟨S3200000x16, .f32⟩ : BufTy).Contents (Elt Ideal))
  (x2 : (⟨S64x64, .f32⟩ : BufTy).Contents (Elt Ideal)) (x3 : (⟨S144x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S2x3200000, .i32⟩ : BufTy).Contents (Elt Ideal))
  (x8 : (⟨S100000, .i32⟩ : BufTy).Contents (Elt Ideal))

/-- The joined array at node `i`, column `k`: entry `k` of the node's row. -/
theorem joined_apply (i : Fin 100000) (k : Fin 144) :
    val_main_v20 (F := Ideal) x0 x1 x2 x7 x8 (ix2 i k)
      = featRow (fun c => x0 (ix2 i c)) (fun c => val_main_v12 (F := Ideal) x1 x7 (ix2 i c))
          (fun c => val_main_v19 (F := Ideal) x2 x8 (ix2 i c)) k := by
  unfold val_main_v20
  exact concat3_apply _ _ _ _ i k

/-- The first layer before the bias, at node `i` and hidden unit `h`. -/
theorem first_apply (i : Fin 100000) (h : Fin 128) :
    val_main_v21 (F := Ideal) x0 x1 x2 x3 x7 x8 (ix2 i h)
      = ∑ k : Fin 144, featRow (fun c => x0 (ix2 i c)) (fun c => val_main_v12 (F := Ideal) x1 x7 (ix2 i c))
          (fun c => val_main_v19 (F := Ideal) x2 x8 (ix2 i c)) k * x3 (ix2 k h) := by
  rw [val_main_v21_apply]
  refine Finset.sum_congr rfl fun k _ => ?_
  rw [lhs_first, rhs_first, joined_apply]

/-- The rectified hidden unit `h` of node `i`. -/
theorem hidden_apply (i : Fin 100000) (h : Fin 128) :
    val_main_v25 (F := Ideal) x0 x1 x2 x3 x4 x7 x8 (ix2 i h)
      = max ((∑ k : Fin 144, featRow (fun c => x0 (ix2 i c)) (fun c => val_main_v12 (F := Ideal) x1 x7 (ix2 i c))
          (fun c => val_main_v19 (F := Ideal) x2 x8 (ix2 i c)) k * x3 (ix2 k h)) + x4 (ix1 h)) (Ideal.ofBits .f32 0x00000000#32) := by
  rw [val_main_v25_apply, val_main_v24_apply, first_apply, val_main_v23_apply, val_main_v22_apply, bias_first,
    val_main_call0_v0_apply, val_main_call0_cst_apply, Ideal.maximumf_def, Ideal.addf_def, Ideal.ofBits_def]

/-- THE REFERENCE AT NODE `i`, CHANNEL `j`: the node function of the node's row. -/
theorem ref_apply (i : Fin 100000) (j : Fin 64) :
    val_main_v29 (F := Ideal) x0 x1 x2 x3 x4 x5 x6 x7 x8 (ix2 i j)
      = rowOut (featRow (fun c => x0 (ix2 i c)) (fun c => val_main_v12 (F := Ideal) x1 x7 (ix2 i c))
          (fun c => val_main_v19 (F := Ideal) x2 x8 (ix2 i c))) x3 (fun h => x4 (ix1 h)) x5 (fun j => x6 (ix1 j)) j := by
  rw [val_main_v29_apply, val_main_v26_apply, val_main_v28_apply, val_main_v27_apply, bias_second, Ideal.addf_def]
  unfold rowOut
  congr 1
  refine Finset.sum_congr rfl fun h _ => ?_
  rw [lhs_second, rhs_second, hidden_apply]

end Cert.ReferenceIdeal.RefRow

end
-- ==== Proof.LibGatherRows.lean ====
/-
  A gather of whole ROWS of a table, read at an index.

  `x[idx]` of a table `x : [N, C]` at a column of row numbers `idx : [P, 1]` — what jnp's `table[rows]` lowers to — is a
  `stablehlo.gather` with the operand's first axis collapsed and start-indexed, the second an offset axis reading the whole
  row (slice sizes `[1, C]`), the index vector along the start indices' last axis (of extent one) and no batching axes.
  Result element `(p, c)` is the table at row `idx[p, 0]`, read as a SIGNED integer and clamped into `[0, N − 1]`
  (StableHLO clamps every start index so that the slice fits), and at column `c`.
-/
import Idealize.ShloMosaic.PureOps
import Idealize.ShloMosaic.Lib.ValueIdx

namespace GatherRows

open Idealize.ShloMosaic Idealize.ShloMosaic.ValueIdx

variable {α : Type}

/-- Those dimension numbers for a table `[N, C]`, start indices `[P, 1]` and a result `[P, C]`; their conditions `wf` are
    decided on a program's literal shapes. -/
abbrev rowDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- THE GATHER READ AT `(p, c)`: the table at row `idx[p, 0]`, read signed and clamped into `[0, N − 1]`, and at
    column `c`. -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (y : (⟨2, ![P, C]⟩ : Shape).Idx) :
    Host.gather (rowDims N C P wf) x idx y
      = x (ix2 (⟨min (idx (ix2 (y 0) (0 : Fin 1))).toInt.toNat (N - 1), by omega⟩ : Fin N) (y 1)) := by
  unfold Host.gather
  congr 1
  funext a
  refine Fin.ext ?_
  match a with
  | ⟨0, _⟩ =>
    show (rowDims N C P wf).start y idx 0 + (rowDims N C P wf).batchCoord y 0 + (rowDims N C P wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C P wf).startIndexMap from List.mem_singleton.mpr rfl)]
    have hsi : (rowDims N C P wf).siIdx y ⟨List.idxOf (0 : Fin 2) (rowDims N C P wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowDims N C P wf).start y idx 1 + (rowDims N C P wf).batchCoord y 1 + (rowDims N C P wf).offCoord y 1 = (y 1).val
    rw [GatherDims.batchCoord_eq_zero _ _ _ List.not_mem_nil]
    unfold GatherDims.start
    rw [dif_neg (show ¬ (1 : Fin 2) ∈ (rowDims N C P wf).startIndexMap from
      (show ¬ (1 : Fin 2) ∈ ([0] : List (Fin 2)) by decide))]
    unfold GatherDims.offCoord
    rw [dif_pos (show (1 : Fin 2) ∈ (rowDims N C P wf).sKept from
      (GatherDims.mem_sKept _ _).mpr ⟨(show ¬ (1 : Fin 2) ∈ ([0] : List (Fin 2)) by decide), List.not_mem_nil⟩)]
    simp only [Nat.zero_add, Nat.add_zero]
    rfl

end GatherRows
-- ==== Proof.RefArray.lean ====
/-
  The reference's result array is the node function of the argument arrays.

  Its graph rows are a gather of the table `u` at the node's graph number, which jnp first moves into range when it is
  negative (`b + 64`) and the gather clamps into `[0, 63]`; for `0 ≤ b < 64` neither changes `b`, and the row read is `u[b]`.
-/
import proofs.«412594_j5188320494485_1_alg».proof.Proof.RefRow
import proofs.«412594_j5188320494485_1_alg».proof.Proof.NodeArray
import proofs.«412594_j5188320494485_1_alg».proof.Proof.LibGatherRows

noncomputable section

namespace Cert.ReferenceIdeal.RefArray

open Cert.ReferenceIdeal Cert.ReferenceIdeal.Gen Cert.ReferenceIdeal.Read Cert.ReferenceIdeal.RefRow
open Idealize.ShloMosaic Idealize.ShloMosaic.ValueIdx NodeRow

/-- The program's gather is the gather of whole rows. -/
theorem gather_eq : gather_S64x64_S100000x1_S100000x64_1_0_n_n_0_1_164
    = GatherRows.rowDims 64 64 100000 gather_S64x64_S100000x1_S100000x64_1_0_n_n_0_1_164_wf := rfl

/-- A graph number in range is a natural number below 64, the same read signed or unsigned. -/
theorem toNat_of_range (b : BitVec 32) (h0 : 0 ≤ b.toInt) (h1 : b.toInt < 64) : b.toInt.toNat = b.toNat ∧ b.toNat < 64 := by
  have := BitVec.toInt_eq_toNat_cond b
  split_ifs at this <;> omega

/-- The gathered array at node `i`, column `c`: row `batch_i` of the table, for graph numbers in range. -/
theorem gathered_apply (x2 : (⟨S64x64, .f32⟩ : BufTy).Contents (Elt Ideal)) (x8 : (⟨S100000, .i32⟩ : BufTy).Contents (Elt Ideal))
    (hB : ∀ i : Fin 100000, 0 ≤ (x8 (ix1 i)).toInt ∧ (x8 (ix1 i)).toInt < 64) (i : Fin 100000) (c : Fin 64) :
    val_main_v19 (F := Ideal) x2 x8 (ix2 i c) = graphRow x2 (x8 (ix1 i)) c := by
  obtain ⟨h0, h1⟩ := hB i
  -- the start index the gather reads for node `i` is the node's graph number itself: it is not negative
  have hw : val_main_v18 (F := Ideal) x8 (ix2 i (0 : Fin 1)) = x8 (ix1 i) := by
    have hj : idx_main_v18 (ix2 i (0 : Fin 1)) = ix1 i := funext fun a => Fin.ext (by match a with | ⟨0, _⟩ => rfl)
    have hneg : IntOp.cmpi .slt (x8 (ix1 i)) 0#32 = 0#1 :=
      eq_zero_of_ne_one (fun h => by have := IntOp.cmpi_slt.mp h; simp at this; omega)
    rw [val_main_v18_apply, hj, val_main_v17_apply, val_main_v14_apply, val_main_v13_apply, val_main_c_apply, hneg, select_zero]
  obtain ⟨e1, e2⟩ := toNat_of_range _ h0 h1
  unfold val_main_v19
  rw [gather_eq, GatherRows.gather_rows_apply (by decide)]
  unfold graphRow
  refine congrArg x2 (congrArg (fun a : Fin 64 => ix2 a c) (Fin.ext ?_))
  show min (val_main_v18 (F := Ideal) x8 (ix2 i (0 : Fin 1))).toInt.toNat (64 - 1) = (x8 (ix1 i)).toNat % 64
  rw [hw]
  omega

variable (x0 : (⟨S100000x64, .f32⟩ : BufTy).Contents (Elt Ideal)) (x1 : (⟨S3200000x16, .f32⟩ : BufTy).Contents (Elt Ideal))
  (x2 : (⟨S64x64, .f32⟩ : BufTy).Contents (Elt Ideal)) (x3 : (⟨S144x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal)) (x7 : (⟨S2x3200000, .i32⟩ : BufTy).Contents (Elt Ideal))
  (x8 : (⟨S100000, .i32⟩ : BufTy).Contents (Elt Ideal))

/-- THE REFERENCE'S RESULT, for graph numbers in range: the node function of the arguments and the edge averages. -/
theorem ref_eq (hB : ∀ i : Fin 100000, 0 ≤ (x8 (ix1 i)).toInt ∧ (x8 (ix1 i)).toInt < 64) :
    val_main_v29 (F := Ideal) x0 x1 x2 x3 x4 x5 x6 x7 x8
      = nodeOut x0 (val_main_v12 (F := Ideal) x1 x7) x2 x3 x4 x5 x6 x8 := by
  funext y
  obtain ⟨i, j, rfl⟩ : ∃ (i : Fin 100000) (j : Fin 64), y = ix2 i j := ⟨y 0, y 1, eq_ix2 y⟩
  rw [ref_apply]
  unfold nodeOut
  have hg : (fun c => val_main_v19 (F := Ideal) x2 x8 (ix2 i c)) = graphRow x2 (x8 (ix1 i)) :=
    funext fun c => gathered_apply x2 x8 hB i c
  rw [hg]

end Cert.ReferenceIdeal.RefArray

end
-- ==== Proof.EdgeMeanEq.lean ====
/-
  The two programs compute the edge averages with the same host operations of the same arguments.
-/
import proofs.«412594_j5188320494485_1_alg».proof.Proof.Gen.ReferenceIdeal.Read
import proofs.«412594_j5188320494485_1_alg».proof.Proof.KernelHost

noncomputable section

namespace Cert.EdgeMeanEq

open Idealize.ShloMosaic

/-- The reference's edge averages are the kernel's: one term, spelt in each program with its own names. -/
theorem edgeMean_eq (x1 : FVec Ideal Cert.KernelIdeal.S3200000x16 .f32) (x7 : IVec Cert.KernelIdeal.S2x3200000 32) :
    Cert.ReferenceIdeal.Read.val_main_v12 (F := Ideal) x1 x7 = Cert.KernelIdeal.KernelHost.edgeMean (F := Ideal) x1 x7 := by
  unfold Cert.ReferenceIdeal.Read.val_main_v12 Cert.ReferenceIdeal.Read.val_main_v4 Cert.ReferenceIdeal.Read.val_main_v11
    Cert.ReferenceIdeal.Read.val_main_v10 Cert.ReferenceIdeal.Read.val_main_v8 Cert.ReferenceIdeal.Read.val_main_v9
    Cert.ReferenceIdeal.Read.val_main_v7 Cert.ReferenceIdeal.Read.val_main_v6 Cert.ReferenceIdeal.Read.val_main_v5
    Cert.ReferenceIdeal.Read.val_main_v3 Cert.ReferenceIdeal.Read.val_main_v2 Cert.ReferenceIdeal.Read.val_main_v1
    Cert.ReferenceIdeal.Read.val_main_v0 Cert.ReferenceIdeal.Read.val_main_cst Cert.ReferenceIdeal.Read.val_main_cst_0
    Cert.ReferenceIdeal.Read.val_main_cst_1 Cert.ReferenceIdeal.Read.val_main_cst_2 Cert.KernelIdeal.KernelHost.edgeMean
  rfl

end Cert.EdgeMeanEq

end
-- ==== Proof.PreRange.lean ====
/-
  What the precondition says of the graph numbers.

  The precondition's last conjunct is `all((batch ≥ 0) & (batch < 64))`: a reduction by `and` over the nodes of the bit
  `(batch_i ≥ 0) ∧ (batch_i < 64)`, both comparisons signed. The whole predicate being 1, that reduction is 1, so the bit is
  1 at every node: every graph number is a row number of the 64-row graph table.
-/
import proofs.«412594_j5188320494485_1_alg».proof.Pre_finite_inputs
import Idealize.ShloMosaic.Lib.ReduceAll
import Idealize.ShloMosaic.Lib.ValueIdx

noncomputable section

namespace Cert.Pre_finite_inputs.Range

open Cert.Pre_finite_inputs Idealize.ShloMosaic Idealize.ShloMosaic.ValueIdx

variable [Facts] {F : FTy → Type} [FloatOps F]

instance : Subsingleton S_.Idx := ⟨fun a b => funext fun d => d.elim0⟩

/-- THE PRECONDITION, DECODED for the graph numbers: `0 ≤ batch_i < 64` for every node `i`. -/
theorem batch_in_range (a0 : FVec F S100000x64 .f32) (a1 : FVec F S3200000x16 .f32) (a2 : FVec F S64x64 .f32)
    (a3 : FVec F S144x128 .f32) (a4 : FVec F S128 .f32) (a5 : FVec F S128x64 .f32) (a6 : FVec F S64 .f32)
    (a7 : IVec S2x3200000 32) (a8 : IVec S100000 32)
    (h : fn (F := F) a0 a1 a2 a3 a4 a5 a6 a7 a8 = fun _ => 1#1) (i : Fin 100000) :
    0 ≤ (a8 (ix1 i)).toInt ∧ (a8 (ix1 i)).toInt < 64 := by
  have h0 := congrFun h ix0
  dsimp only [fn, fn_part1, fn_part2] at h0
  obtain ⟨-, hall⟩ := IntOp.andi_eq_one.mp h0
  have hi := Host.reduce_andi_all _ _ _ _ _ hall (ix1 i)
  obtain ⟨hge, hlt⟩ := IntOp.andi_eq_one.mp hi
  have g1 : (0#32 : BitVec 32).toInt ≤ (a8 (ix1 i)).toInt := IntOp.cmpi_sge.mp hge
  have g2 : (a8 (ix1 i)).toInt < (64#32 : BitVec 32).toInt := IntOp.cmpi_slt.mp hlt
  have e0 : (0#32 : BitVec 32).toInt = 0 := by decide
  have e64 : (64#32 : BitVec 32).toInt = 64 := by decide
  omega

end Cert.Pre_finite_inputs.Range

end
-- ==== Proof.lean ====
/-
  A node update of a graph network: `out = relu([x | e | u[batch]] · W1 + b1) · W2 + b2`, where `e` is the average of the
  attributes of the edges arriving at each node.

  Both programs compute `e` on the host with the same operations (two scatter-adds and a quotient). The reference then
  gathers the rows `u[batch]`, joins the three parts and applies the two dense layers to the whole [100000, 144] array.
  The kernel does the rest on a grid of 50 points, 2000 nodes each: it builds the indicator matrix `[batch_r = g]`, multiplies
  it into the graph table `u` to fetch the rows, joins the three parts and applies the two layers to its block. On the
  extended reals a change of float format is the identity and a block product into a zero accumulator is the plain sum,
  so each node's output is one function of its 144-entry row in both programs (Proof/NodeRow.lean); and the row is the same:
  for a graph number `0 ≤ b < 64` the indicator row times `u` is row `b` of `u` (`0 · y = 0` for every extended real), and
  so is the gather's row, which jnp wraps only when `b` is negative and clamps only when `b` is 64 or more. Outside that
  range the two differ (the kernel reads no row, the reference a wrapped or clamped one): the statement carries
  `0 ≤ batch < 64`, the range of the row numbers of the table `batch` indexes.

  The kernel's frames are the generated ones; the reference's frame and value come from its generated run, read one
  operation at a time (Proof/RefRow.lean, Proof/RefArray.lean); the kernel's value from the generated run with its output
  array named, the body's result read row by row (Proof/KernelRow.lean) and laid block by block over the array
  (Proof/KernelArray.lean).
-/
import proofs.«412594_j5188320494485_1_alg».proof.Defs
import proofs.«412594_j5188320494485_1_alg».proof.Proof.Gen.Kernel
import proofs.«412594_j5188320494485_1_alg».proof.Proof.Gen.Kernel.Skeleton
import proofs.«412594_j5188320494485_1_alg».proof.Proof.Gen.Kernel.Launch
import proofs.«412594_j5188320494485_1_alg».proof.Proof.Gen.Kernel.Points
import proofs.«412594_j5188320494485_1_alg».proof.Proof.Gen.Kernel.Frame
import proofs.«412594_j5188320494485_1_alg».proof.Proof.Gen.KernelIdeal
import proofs.«412594_j5188320494485_1_alg».proof.Proof.Gen.KernelIdeal.Skeleton
import proofs.«412594_j5188320494485_1_alg».proof.Proof.Gen.KernelIdeal.Launch
import proofs.«412594_j5188320494485_1_alg».proof.Proof.Gen.KernelIdeal.Points
import proofs.«412594_j5188320494485_1_alg».proof.Proof.Gen.KernelIdeal.Frame
import proofs.«412594_j5188320494485_1_alg».proof.Proof.Gen.ReferenceIdeal
import proofs.«412594_j5188320494485_1_alg».proof.Proof.Gen.Pre_finite_inputs
import proofs.«412594_j5188320494485_1_alg».proof.Proof.Gen.KernelIdeal.Value
import proofs.«412594_j5188320494485_1_alg».proof.Proof.Gen.ReferenceIdeal.Run
import proofs.«412594_j5188320494485_1_alg».proof.Proof.Gen.ReferenceIdeal.Read
import proofs.«412594_j5188320494485_1_alg».proof.Proof.KernelArray
import proofs.«412594_j5188320494485_1_alg».proof.Proof.RefArray
import proofs.«412594_j5188320494485_1_alg».proof.Proof.EdgeMeanEq
import proofs.«412594_j5188320494485_1_alg».proof.Proof.PreRange
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its generated run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Under the precondition the graph numbers of the kernel's memory are in range, on every core. -/
theorem in_range (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.KernelArray.InRange m c :=
  fun i => Cert.Pre_finite_inputs.Range.batch_in_range _ _ _ _ _ _ _ _ _ (hpre c) i

/-- Both programs end with the node function of the argument arrays in their result: the kernel block by block, the
    reference operation by operation, their edge averages one term and their graph rows one row for graph numbers in range. -/
theorem algebraic : Cert.algebraic_KernelIdeal_ReferenceIdeal := by
  intro m ρ m' ρ' hpre hagree
  have hB := in_range m hpre
  refine ⟨fun c => Cert.KernelIdeal.KernelArray.result m c, Cert.KernelIdeal.KernelArray.run m ρ hB, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v29_eq,
    Cert.ReferenceIdeal.RefArray.ref_eq _ _ _ _ _ _ _ _ _ (hB c), Cert.EdgeMeanEq.edgeMean_eq]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
